-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S_ : Shape := ⟨0, ![]⟩

class Facts : Prop where
  bcast_S_S8x300x1x512 : S_.BroadcastsInDim S8x300x1x512 (![] : Fin 0 → Fin S8x300x1x512.rank)
  reducesTo_S8x300x1x512_S_d0_1_2_3 : S8x300x1x512.ReducesTo [0, 1, 2, 3] S_
  h_S_ : 0 < S_.numel
  bcast_S_S8x1x80x512 : S_.BroadcastsInDim S8x1x80x512 (![] : Fin 0 → Fin S8x1x80x512.rank)
  reducesTo_S8x1x80x512_S_d0_1_2_3 : S8x1x80x512.ReducesTo [0, 1, 2, 3] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_

variable [Facts]

def fn_part1 {F : FTy → Type} [FloatOps F] (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  main_v18

def fn {F : FTy → Type} [FloatOps F] (main_arg0 : FVec F S8x300x1x512 .f32) (main_arg1 : FVec F S8x1x80x512 .f32) (main_arg2 : FVec F S1024x640 .f32) (main_arg3 : FVec F S640 .f32) : IVec S_ 1 :=
  let main_v0 : FVec F S8x300x1x512 .f32 := Host.absf main_arg0
  let main_cst : FVec F S_ .f32 := constant S_ .f32 0x7F800000#32
  let main_v1 : FVec F S8x300x1x512 .f32 := broadcastInDim S8x300x1x512 ![] bcast_S_S8x300x1x512 main_cst
  let main_v2 : IVec S8x300x1x512 1 := cmpf .olt main_v0 main_v1
  let main_c : IVec S_ 1 := constantI S_ 1 1#1
  let main_v3 : IVec S_ 1 := (fun x v => Host.reduce IntOp.andi x v reducesTo_S8x300x1x512_S_d0_1_2_3 h_S_) main_v2 main_c
  let main_v4 : FVec F S8x1x80x512 .f32 := Host.absf main_arg1
  let main_cst_0 : FVec F S_ .f32 := constant S_ .f32 0x7F800000#32
  let main_v5 : FVec F S8x1x80x512 .f32 := broadcastInDim S8x1x80x512 ![] bcast_S_S8x1x80x512 main_cst_0
  let main_v6 : IVec S8x1x80x512 1 := cmpf .olt main_v4 main_v5
  let main_c_1 : IVec S_ 1 := constantI S_ 1 1#1
  let main_v7 : IVec S_ 1 := (fun x v => Host.reduce IntOp.andi x v reducesTo_S8x1x80x512_S_d0_1_2_3 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_v13 main_v16
-- ==== Kernel.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S8x300x80x640 : Shape := ⟨4, ![8, 300, 80, 640]⟩
abbrev S1x50x1x512 : Shape := ⟨4, ![1, 50, 1, 512]⟩
abbrev S1x1x80x512 : Shape := ⟨4, ![1, 1, 80, 512]⟩
abbrev S1x50x80x640 : Shape := ⟨4, ![1, 50, 80, 640]⟩
abbrev S50x512 : Shape := ⟨2, ![50, 512]⟩
abbrev S80x512 : Shape := ⟨2, ![80, 512]⟩
abbrev S512x640 : Shape := ⟨2, ![512, 640]⟩
abbrev S50x640 : Shape := ⟨2, ![50, 640]⟩
abbrev S80x640 : Shape := ⟨2, ![80, 640]⟩
abbrev S50x1x640 : Shape := ⟨3, ![50, 1, 640]⟩
abbrev S1x80x640 : Shape := ⟨3, ![1, 80, 640]⟩
abbrev S50x80x640 : Shape := ⟨3, ![50, 80, 640]⟩
abbrev S1x1x640 : Shape := ⟨3, ![1, 1, 640]⟩

abbrev nBuf : Space → Nat
  | .hbm => 5
  | .vmem => 8
  | .smem => 0
  | _ => 0

abbrev bufTy : (tb : Table) → Fin (tcTables nBuf tb) → BufTy
  | .hbm, ⟨0, _⟩ => ⟨S8x300x1x512, .f32⟩
  | .hbm, ⟨1, _⟩ => ⟨S8x1x80x512, .f32⟩
  | .hbm, ⟨2, _⟩ => ⟨S1024x640, .f32⟩
  | .hbm, ⟨3, _⟩ => ⟨S640, .f32⟩
  | .hbm, ⟨4, _⟩ => ⟨S8x300x80x640, .f32⟩
  | .local _ .vmem, ⟨0, _⟩ => ⟨S1x50x1x512, .f32⟩
  | .local _ .vmem, ⟨1, _⟩ => ⟨S1x50x1x512, .f32⟩
  | .local _ .vmem, ⟨2, _⟩ => ⟨S1x1x80x512, .f32⟩
  | .local _ .vmem, ⟨3, _⟩ => ⟨S1x1x80x512, .f32⟩
  | .local _ .vmem, ⟨4, _⟩ => ⟨S1024x640, .f32⟩
  | .local _ .vmem, ⟨5, _⟩ => ⟨S640, .f32⟩
  | .local _ .vmem, ⟨6, _⟩ => ⟨S1x50x80x640, .f32⟩
  | .local _ .vmem, ⟨7, _⟩ => ⟨S1x50x80x640, .f32⟩
  | _, _ => ⟨S8x300x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x50x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x80x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x50x80x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x50x1x512_S1x50x1x512_0_0_0_0 : ∀ a, (![0, 0, 0, 0] : Fin 4 → Nat) a + S1x50x1x512.size a ≤ S1x50x1x512.size a
  h_S1x50x1x512 : 0 < S1x50x1x512.numel
  shapeCasts_S1x50x1x512_S50x512 : S1x50x1x512.ShapeCasts S50x512
  bitsLt_bf16_f32 : FTy.bits .bf16 < FTy.bits .f32
  inb_S1x1x80x512_S1x1x80x512_0_0_0_0 : ∀ a, (![0, 0, 0, 0] : Fin 4 → Nat) a + S1x1x80x512.size a ≤ S1x1x80x512.size a
  h_S1x1x80x512 : 0 < S1x1x80x512.numel
  shapeCasts_S1x1x80x512_S80x512 : S1x1x80x512.ShapeCasts S80x512
  inb_S1024x640_S512x640_0_0 : ∀ a, (![0, 0] : Fin 2 → Nat) a + S512x640.size a ≤ S1024x640.size a
  h_S512x640 : 0 < S512x640.numel
  inb_S1024x640_S512x640_512_0 : ∀ a, (![512, 0] : Fin 2 → Nat) a + S512x640.size a ≤ S1024x640.size a
  inb_S640_S640_0 : ∀ a, (![0] : Fin 1 → Nat) a + S640.size a ≤ S640.size a
  h_S640 : 0 < S640.numel
  shapeCasts_S50x640_S50x1x640 : S50x640.ShapeCasts S50x1x640
  shapeCasts_S80x640_S1x80x640 : S80x640.ShapeCasts S1x80x640
  broadcasts_S50x1x640_S50x80x640 : S50x1x640.Broadcasts S50x80x640
  broadcasts_S1x80x640_S50x80x640 : S1x80x640.Broadcasts S50x80x640
  shapeCasts_S640_S1x1x640 : S640.ShapeCasts S1x1x640
  broadcasts_S1x1x640_S50x80x640 : S1x1x640.Broadcasts S50x80x640
  inb_S1x50x80x640_S1x50x80x640_0_0_0_0 : ∀ a, (![0, 0, 0, 0] : Fin 4 → Nat) a + S1x50x80x640.size a ≤ S1x50x80x640.size a
  h_S1x50x80x640 : 0 < S1x50x80x640.numel
  shapeCasts_S1x50x80x640_S50x80x640 : S1x50x80x640.ShapeCasts S50x80x640
  shapeCasts_S50x80x640_S1x50x80x640 : S50x80x640.ShapeCasts S1x50x80x640
  dot_S50x512_S512x640_S50x640_1_0_0_1_n_n_wf : DotDims.WF S50x512 S512x640 S50x640 [1] [0] [0] [1] [] []
  dot_S80x512_S512x640_S80x640_1_0_0_1_n_n_wf : DotDims.WF S80x512 S512x640 S80x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50x1x512.size a ≤ S8x300x1x512.size a
  hwx0_0 : ∀ i : grid0.Coords, EltTy.bits .f32 = 32 ∨ (Rect.block (s := S8x300x1x512) S1x50x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x80x512.size a ≤ S8x1x80x512.size a
  hwx0_1 : ∀ i : grid0.Coords, EltTy.bits .f32 = 32 ∨ (Rect.block (s := S8x1x80x512) S1x1x80x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .f32 = 32 ∨ (Rect.block (s := S1024x640) S1024x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x50x80x640.size a ≤ S8x300x80x640.size a
  hwx0_4 : ∀ i : grid0.Coords, EltTy.bits .f32 = 32 ∨ (Rect.block (s := S8x300x80x640) S1x50x80x640.size (cc0_transform_4 i) (hinb0_4 i)).WholeWords (EltTy.packing .f32)

variable [Facts₀]

def dot_S50x512_S512x640_S50x640_1_0_0_1_n_n : DotDims S50x512 S512x640 S50x640 where
  lhsContracting := [1]
  rhsContracting := [0]
  lhsNonContracting := [0]
  rhsNonContracting := [1]
  lhsBatch := []
  rhsBatch := []
  wf := dot_S50x512_S512x640_S50x640_1_0_0_1_n_n_wf
def dot_S80x512_S512x640_S80x640_1_0_0_1_n_n : DotDims S80x512 S512x640 S80x640 where
  lhsContracting := [1]
  rhsContracting := [0]
  lhsNonContracting := [0]
  rhsNonContracting := [1]
  lhsBatch := []
  rhsBatch := []
  wf := dot_S80x512_S512x640_S80x640_1_0_0_1_n_n_wf

abbrev win0_0 : Pipeline.Window sig grid0 :=
  Pipeline.Window.ofSpec (Memref.whole main_arg0) S1x50x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x80x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x50x80x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x300x1x512 : Shape := ⟨4, ![8, 300, 1, 512]⟩
abbrev S8x1x80x512 : Shape := ⟨4, ![8, 1, 80, 512]⟩
abbrev S1024x640 : Shape := ⟨2, ![1024, 640]⟩
abbrev S640 : Shape := ⟨1, ![640]⟩
abbrev S512x640 : Shape := ⟨2, ![512, 640]⟩
abbrev S8x300x1x640 : Shape := ⟨4, ![8, 300, 1, 640]⟩
abbrev S8x1x80x640 : Shape := ⟨4, ![8, 1, 80, 640]⟩
abbrev S8x300x80x640 : Shape := ⟨4, ![8, 300, 80, 640]⟩
abbrev S1x1x1x640 : Shape := ⟨4, ![1, 1, 1, 640]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x300x1x512, .f32⟩
  | .hbm, ⟨1, _⟩ => ⟨S8x1x80x512, .f32⟩
  | .hbm, ⟨2, _⟩ => ⟨S1024x640, .f32⟩
  | .hbm, ⟨3, _⟩ => ⟨S640, .f32⟩
  | .hbm, ⟨4, _⟩ => ⟨S512x640, .f32⟩
  | .hbm, ⟨5, _⟩ => ⟨S512x640, .f32⟩
  | .hbm, ⟨6, _⟩ => ⟨S8x300x1x640, .f32⟩
  | .hbm, ⟨7, _⟩ => ⟨S8x1x80x640, .f32⟩
  | .hbm, ⟨8, _⟩ => ⟨S8x300x80x640, .f32⟩
  | .hbm, ⟨9, _⟩ => ⟨S8x300x80x640, .f32⟩
  | .hbm, ⟨10, _⟩ => ⟨S8x300x80x640, .f32⟩
  | .hbm, ⟨11, _⟩ => ⟨S1x1x1x640, .f32⟩
  | .hbm, ⟨12, _⟩ => ⟨S8x300x80x640, .f32⟩
  | .hbm, ⟨13, _⟩ => ⟨S8x300x80x640, .f32⟩
  | .hbm, ⟨14, _⟩ => ⟨S_, .f32⟩
  | .hbm, ⟨15, _⟩ => ⟨S_, .f32⟩
  | .hbm, ⟨16, _⟩ => ⟨S8x300x80x640, .f32⟩
  | .hbm, ⟨17, _⟩ => ⟨S8x300x80x640, .i1⟩
  | .hbm, ⟨18, _⟩ => ⟨S_, .f32⟩
  | .hbm, ⟨19, _⟩ => ⟨S8x300x80x640, .f32⟩
  | .hbm, ⟨20, _⟩ => ⟨S8x300x80x640, .f32⟩
  | .hbm, ⟨21, _⟩ => ⟨S8x300x80x640, .f32⟩
  | _, _ => ⟨S8x300x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S8x300x1x640_S8x300x80x640_0_1_2_3 : S8x300x1x640.BroadcastsInDim S8x300x80x640 (![0, 1, 2, 3] : Fin 4 → Fin S8x300x80x640.rank)
  bcast_S8x1x80x640_S8x300x80x640_0_1_2_3 : S8x1x80x640.BroadcastsInDim S8x300x80x640 (![0, 1, 2, 3] : Fin 4 → Fin S8x300x80x640.rank)
  bcast_S640_S1x1x1x640_3 : S640.BroadcastsInDim S1x1x1x640 (![3] : Fin 1 → Fin S1x1x1x640.rank)
  bcast_S1x1x1x640_S8x300x80x640_0_1_2_3 : S1x1x1x640.BroadcastsInDim S8x300x80x640 (![0, 1, 2, 3] : Fin 4 → Fin S8x300x80x640.rank)
  bcast_S_S8x300x80x640 : S_.BroadcastsInDim S8x300x80x640 (![] : Fin 0 → Fin S8x300x80x640.rank)
  dot_S8x300x1x512_S512x640_S8x300x1x640_3_0_012_1_n_n_wf : DotDims.WF S8x300x1x512 S512x640 S8x300x1x640 [3] [0] [0, 1, 2] [1] [] []
  dot_S8x1x80x512_S512x640_S8x1x80x640_3_0_012_1_n_n_wf : DotDims.WF S8x1x80x512 S512x640 S8x1x80x640 [3] [0] [0, 1, 2] [1] [] []

variable [Facts₀]

def dot_S8x300x1x512_S512x640_S8x300x1x640_3_0_012_1_n_n : DotDims S8x300x1x512 S512x640 S8x300x1x640 where
  lhsContracting := [3]
  rhsContracting := [0]
  lhsNonContracting := [0, 1, 2]
  rhsNonContracting := [1]
  lhsBatch := []
  rhsBatch := []
  wf := dot_S8x300x1x512_S512x640_S8x300x1x640_3_0_012_1_n_n_wf
def dot_S8x1x80x512_S512x640_S8x1x80x640_3_0_012_1_n_n : DotDims S8x1x80x512 S512x640 S8x1x80x640 where
  lhsContracting := [3]
  rhsContracting := [0]
  lhsNonContracting := [0, 1, 2]
  rhsNonContracting := [1]
  lhsBatch := []
  rhsBatch := []
  wf := dot_S8x1x80x512_S512x640_S8x1x80x640_3_0_012_1_n_n_wf

class Facts : Prop extends Facts₀ where

variable [Facts]
-- ==== Proof.Spec.lean ====
/-
  The specification both programs meet at the ideal values, as ONE function of the four argument arrays.

  With `x` the [8, 300, 1, 512] array of one stream, `y` the [8, 1, 80, 512] array of the other, `W` the
  [1024, 640] weight matrix and `β` the [640] bias, the joint pre-activation at (b, t, u, o) is

      J b t u o = (∑ h < 512, x[b, t, 0, h] · W[h, o]) + (∑ h < 512, y[b, 0, u, h] · W[512 + h, o]) + β[o]

  — the first stream against the top half of `W`, the second against its bottom half — and the result is the
  leaky rectifier `λ(J) = J` where `J ≥ 0`, else `0.01 · J` (the slope the single-precision word nearest 0.01, the
  same word in both programs, never evaluated).  Sums and products are the extended reals'; no law beyond
  re-indexing a finite sum is needed to see that both programs compute this, so finiteness of the inputs is
  never used.
-/
import Idealize.ShloMosaic.PureOps.Ideal
import Idealize.ShloMosaic.Lib.ValueIdx

noncomputable section

open scoped BigOperators

namespace Cert.JointSpec

open Idealize.ShloMosaic Idealize.ShloMosaic.ValueIdx

abbrev STn : Shape := ⟨4, ![8, 300, 1, 512]⟩
abbrev SPn : Shape := ⟨4, ![8, 1, 80, 512]⟩
abbrev SW : Shape := ⟨2, ![1024, 640]⟩
abbrev SB : Shape := ⟨1, ![640]⟩
abbrev SOut : Shape := ⟨4, ![8, 300, 80, 640]⟩

/-- The leaky rectifier on an extended real: the value itself where it compares `≥ 0`, else the slope times it. -/
def lrelu (x : EReal) : EReal :=
  Scalar.select (FloatOps.cmpf (F := Ideal) (φ := .f32) .oge x (Ideal.ofBits .f32 0x00000000#32)) x
    (Ideal.ofBits .f32 0x3C23D70A#32 * x)

/-- Row `h` of the weight matrix's top half. -/
def rowTop (h : Fin 512) : Fin 1024 := ⟨h.val, by omega⟩
/-- Row `h` of its bottom half: row `512 + h` of the matrix. -/
def rowBot (h : Fin 512) : Fin 1024 := ⟨512 + h.val, by omega⟩

/-- The first stream's projection: row (b, t) against column `o` of the top half. -/
def projT (x : STn.Idx → EReal) (W : SW.Idx → EReal) (b : Fin 8) (t : Fin 300) (o : Fin 640) : EReal :=
  ∑ h : Fin 512, x (ix4 b t (0 : Fin 1) h) * W (ix2 (rowTop h) o)

/-- The second stream's projection: row (b, u) against column `o` of the bottom half. -/
def projP (y : SPn.Idx → EReal) (W : SW.Idx → EReal) (b : Fin 8) (u : Fin 80) (o : Fin 640) : EReal :=
  ∑ h : Fin 512, y (ix4 b (0 : Fin 1) u h) * W (ix2 (rowBot h) o)

/-- The joint pre-activation at (b, t, u, o). -/
def joint (x : STn.Idx → EReal) (y : SPn.Idx → EReal) (W : SW.Idx → EReal) (β : SB.Idx → EReal)
    (b : Fin 8) (t : Fin 300) (u : Fin 80) (o : Fin 640) : EReal :=
  (projT x W b t o + projP y W b u o) + β (ix1 o)

/-- The result array: the rectifier of the joint pre-activation, index by index. -/
def G (x : STn.Idx → EReal) (y : SPn.Idx → EReal) (W : SW.Idx → EReal) (β : SB.Idx → EReal) : SOut.Idx → EReal :=
  fun i => lrelu (joint x y W β (i 0) (i 1) (i 2) (i 3))

end Cert.JointSpec

end
-- ==== Proof.RefRun.lean ====
/-
  The reference program's run, read back.  Its @main is a straight line of eighteen host operations once the two
  outlined functions are unfolded at their call sites: the two row-halves of the weight matrix, the two products
  contracting the feature axis, the three broadcasts and two additions that form the joint pre-activation
  `J[b,t,u,o] = (tn·Wt)[b,t,o] + (pn·Wp)[b,u,o] + bias[o]`, and the leaky rectifier `select (J ≥ 0) J (0.01 · J)`
  (the comparison, the slope's conversion and broadcast, the product, the select).  Every weakly fair execution ends
  with the result buffer at that composed term of the argument arrays, the arguments unchanged.
-/
import proofs.«169859_j74981539053948_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The joint pre-activation: both projections broadcast over the axis they lack, added, plus the bias broadcast
    over the three leading axes. -/
def joint (x0 : FVec F S8x300x1x512 .f32) (x1 : FVec F S8x1x80x512 .f32) (x2 : FVec F S1024x640 .f32) (x3 : FVec F S640 .f32) :
    FVec F S8x300x80x640 .f32 :=
  addf
    (addf
      (broadcastInDim S8x300x80x640 ![0, 1, 2, 3] bcast_S8x300x1x640_S8x300x80x640_0_1_2_3
        (Host.dotGeneral dot_S8x300x1x512_S512x640_S8x300x1x640_3_0_012_1_n_n none x0
          (extractStridedSlice S512x640 ![0, 0] x2 slices_S1024x640_S512x640_0_0)))
      (broadcastInDim S8x300x80x640 ![0, 1, 2, 3] bcast_S8x1x80x640_S8x300x80x640_0_1_2_3
        (Host.dotGeneral dot_S8x1x80x512_S512x640_S8x1x80x640_3_0_012_1_n_n none x1
          (extractStridedSlice S512x640 ![512, 0] x2 slices_S1024x640_S512x640_512_0))))
    (broadcastInDim S8x300x80x640 ![0, 1, 2, 3] bcast_S1x1x1x640_S8x300x80x640_0_1_2_3
      (broadcastInDim S1x1x1x640 ![3] bcast_S640_S1x1x1x640_3 x3))

/-- The reference's result: the leaky rectifier of the joint pre-activation. -/
def out (x0 : FVec F S8x300x1x512 .f32) (x1 : FVec F S8x1x80x512 .f32) (x2 : FVec F S1024x640 .f32) (x3 : FVec F S640 .f32) :
    FVec F S8x300x80x640 .f32 :=
  select
    (cmpf .oge (joint x0 x1 x2 x3) (broadcastInDim S8x300x80x640 ![] bcast_S_S8x300x80x640 (constant S_ .f32 0x00000000#32)))
    (joint x0 x1 x2 x3)
    (mulf (broadcastInDim S8x300x80x640 ![] bcast_S_S8x300x80x640 (id (constant S_ .f32 0x3C23D70A#32))) (joint x0 x1 x2 x3))

/-- @main's operations in order, the rectifier's six and the select it calls listed where they are called. -/
abbrev ops : List (HloOp τ sig (Elt F)) :=
  [ unary main_arg2 main_v0 ((extractStridedSlice S512x640 ![0, 0] · slices_S1024x640_S512x640_0_0) : (⟨S1024x640, .f32⟩ : BufTy).Contents (Elt F) → (⟨S512x640, .f32⟩ : BufTy).Contents (Elt F)),
    unary main_arg2 main_v1 ((extractStridedSlice S512x640 ![512, 0] · slices_S1024x640_S512x640_512_0) : (⟨S1024x640, .f32⟩ : BufTy).Contents (Elt F) → (⟨S512x640, .f32⟩ : BufTy).Contents (Elt F)),
    binary main_arg0 main_v0 main_v2 ((fun l r => Host.dotGeneral dot_S8x300x1x512_S512x640_S8x300x1x640_3_0_012_1_n_n none l r) : (⟨S8x300x1x512, .f32⟩ : BufTy).Contents (Elt F) → (⟨S512x640, .f32⟩ : BufTy).Contents (Elt F) → (⟨S8x300x1x640, .f32⟩ : BufTy).Contents (Elt F)),
    binary main_arg1 main_v1 main_v3 ((fun l r => Host.dotGeneral dot_S8x1x80x512_S512x640_S8x1x80x640_3_0_012_1_n_n none l r) : (⟨S8x1x80x512, .f32⟩ : BufTy).Contents (Elt F) → (⟨S512x640, .f32⟩ : BufTy).Contents (Elt F) → (⟨S8x1x80x640, .f32⟩ : BufTy).Contents (Elt F)),
    unary main_v2 main_v4 (broadcastInDim S8x300x80x640 ![0, 1, 2, 3] bcast_S8x300x1x640_S8x300x80x640_0_1_2_3 : (⟨S8x300x1x640, .f32⟩ : BufTy).Contents (Elt F) → (⟨S8x300x80x640, .f32⟩ : BufTy).Contents (Elt F)),
    unary main_v3 main_v5 (broadcastInDim S8x300x80x640 ![0, 1, 2, 3] bcast_S8x1x80x640_S8x300x80x640_0_1_2_3 : (⟨S8x1x80x640, .f32⟩ : BufTy).Contents (Elt F) → (⟨S8x300x80x640, .f32⟩ : BufTy).Contents (Elt F)),
    binary main_v4 main_v5 main_v6 (addf : (⟨S8x300x80x640, .f32⟩ : BufTy).Contents (Elt F) → (⟨S8x300x80x640, .f32⟩ : BufTy).Contents (Elt F) → (⟨S8x300x80x640, .f32⟩ : BufTy).Contents (Elt F)),
    unary main_arg3 main_v7 (broadcastInDim S1x1x1x640 ![3] bcast_S640_S1x1x1x640_3 : (⟨S640, .f32⟩ : BufTy).Contents (Elt F) → (⟨S1x1x1x640, .f32⟩ : BufTy).Contents (Elt F)),
    unary main_v7 main_v8 (broadcastInDim S8x300x80x640 ![0, 1, 2, 3] bcast_S1x1x1x640_S8x300x80x640_0_1_2_3 : (⟨S1x1x1x640, .f32⟩ : BufTy).Contents (Elt F) → (⟨S8x300x80x640, .f32⟩ : BufTy).Contents (Elt F)),
    binary main_v6 main_v8 main_v9 (addf : (⟨S8x300x80x640, .f32⟩ : BufTy).Contents (Elt F) → (⟨S8x300x80x640, .f32⟩ : BufTy).Contents (Elt F) → (⟨S8x300x80x640, .f32⟩ : BufTy).Contents (Elt F)),
    nullary main_cst (constant S_ .f32 0x3C23D70A#32),
    TRef.nullary main_call0.cst (constant S_ .f32 0x00000000#32),
    TRef.unary main_call0.cst main_call0.v0 (broadcastInDim S8x300x80x640 ![] bcast_S_S8x300x80x640),
    TRef.binary (.of main_v9) main_call0.v0 main_call0.v1 (cmpf .oge),
    TRef.unary (.of main_cst) main_call0.v2 id,
    TRef.unary main_call0.v2 main_call0.v3 (broadcastInDim S8x300x80x640 ![] bcast_S_S8x300x80x640),
    TRef.binary main_call0.v3 (.of main_v9) main_call0.v4 mulf,
    TRef.ternary main_call0.v1 (.of main_v9) main_call0.v4 main_call0.call0.v0 select ]

set_option maxRecDepth 1024 in
/-- @main is that straight line: the two functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The operations' fold at the result buffer is `out` of the four argument arrays. -/
theorem out_eq (V : Valuation τ sig (Elt F)) :
    after ops V (main_v10 : DevRef τ sig)
      = out (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl

/-- From any memory with zero counters, every weakly fair execution of @main terminates with the result buffer at
    `out` of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's result term is the specification.

  Read at (b, t, u, o): each `dot_general` contracts the feature axis of one stream against the rows of one half
  of the weight matrix, and at the ideal values is the plain sum over that axis; a slice of the matrix reads the
  matrix at the row shifted by the slice's offset (0 for the top half, 512 for the bottom); each
  `broadcast_in_dim` reads its operand with the unit axes at 0; the scalar constants broadcast to themselves.  What
  is left is the rectifier of the joint pre-activation, term for term the specification's.
-/
import proofs.«169859_j74981539053948_1_alg».proof.Proof.RefRun
import proofs.«169859_j74981539053948_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.JointSpec

/-! ## The two contractions' operand indices, axis by axis -/

theorem lhs_tn_0 (i : S8x300x1x640.Idx) (q : dot_S8x300x1x512_S512x640_S8x300x1x640_3_0_012_1_n_n.contr.Idx) :
    (dot_S8x300x1x512_S512x640_S8x300x1x640_3_0_012_1_n_n.lhsIdx i q 0).val = (i 0).val := by
  unfold DotDims.lhsIdx
  rw [dif_neg (show ¬(0 : Fin S8x300x1x512.rank) ∈ dot_S8x300x1x512_S512x640_S8x300x1x640_3_0_012_1_n_n.lhsBatch by decide), dif_pos (show (0 : Fin S8x300x1x512.rank) ∈ dot_S8x300x1x512_S512x640_S8x300x1x640_3_0_012_1_n_n.lhsNonContracting by decide)]
  rfl
theorem lhs_tn_1 (i : S8x300x1x640.Idx) (q : dot_S8x300x1x512_S512x640_S8x300x1x640_3_0_012_1_n_n.contr.Idx) :
    (dot_S8x300x1x512_S512x640_S8x300x1x640_3_0_012_1_n_n.lhsIdx i q 1).val = (i 1).val := by
  unfold DotDims.lhsIdx
  rw [dif_neg (show ¬(1 : Fin S8x300x1x512.rank) ∈ dot_S8x300x1x512_S512x640_S8x300x1x640_3_0_012_1_n_n.lhsBatch by decide), dif_pos (show (1 : Fin S8x300x1x512.rank) ∈ dot_S8x300x1x512_S512x640_S8x300x1x640_3_0_012_1_n_n.lhsNonContracting by decide)]
  rfl
theorem lhs_tn_2 (i : S8x300x1x640.Idx) (q : dot_S8x300x1x512_S512x640_S8x300x1x640_3_0_012_1_n_n.contr.Idx) :
    (dot_S8x300x1x512_S512x640_S8x300x1x640_3_0_012_1_n_n.lhsIdx i q 2).val = (i 2).val := by
  unfold DotDims.lhsIdx
  rw [dif_neg (show ¬(2 : Fin S8x300x1x512.rank) ∈ dot_S8x300x1x512_S512x640_S8x300x1x640_3_0_012_1_n_n.lhsBatch by decide), dif_pos (show (2 : Fin S8x300x1x512.rank) ∈ dot_S8x300x1x512_S512x640_S8x300x1x640_3_0_012_1_n_n.lhsNonContracting by decide)]
  rfl
theorem lhs_tn_3 (i : S8x300x1x640.Idx) (q : dot_S8x300x1x512_S512x640_S8x300x1x640_3_0_012_1_n_n.contr.Idx) :
    (dot_S8x300x1x512_S512x640_S8x300x1x640_3_0_012_1_n_n.lhsIdx i q 3).val = (q ⟨0, by decide⟩).val :=
  dot_S8x300x1x512_S512x640_S8x300x1x640_3_0_012_1_n_n.lhsIdx_val_of_single rfl i q
theorem rhs_tn_0 (i : S8x300x1x640.Idx) (q : dot_S8x300x1x512_S512x640_S8x300x1x640_3_0_012_1_n_n.contr.Idx) :
    (dot_S8x300x1x512_S512x640_S8x300x1x640_3_0_012_1_n_n.rhsIdx i q 0).val = (q ⟨0, by decide⟩).val :=
  dot_S8x300x1x512_S512x640_S8x300x1x640_3_0_012_1_n_n.rhsIdx_val_of_single rfl i q
theorem rhs_tn_1 (i : S8x300x1x640.Idx) (q : dot_S8x300x1x512_S512x640_S8x300x1x640_3_0_012_1_n_n.contr.Idx) :
    (dot_S8x300x1x512_S512x640_S8x300x1x640_3_0_012_1_n_n.rhsIdx i q 1).val = (i 3).val := by
  unfold DotDims.rhsIdx
  rw [dif_neg (show ¬(1 : Fin S512x640.rank) ∈ dot_S8x300x1x512_S512x640_S8x300x1x640_3_0_012_1_n_n.rhsBatch by decide), dif_pos (show (1 : Fin S512x640.rank) ∈ dot_S8x300x1x512_S512x640_S8x300x1x640_3_0_012_1_n_n.rhsNonContracting by decide)]
  rfl

theorem lhs_pn_0 (i : S8x1x80x640.Idx) (q : dot_S8x1x80x512_S512x640_S8x1x80x640_3_0_012_1_n_n.contr.Idx) :
    (dot_S8x1x80x512_S512x640_S8x1x80x640_3_0_012_1_n_n.lhsIdx i q 0).val = (i 0).val := by
  unfold DotDims.lhsIdx
  rw [dif_neg (show ¬(0 : Fin S8x1x80x512.rank) ∈ dot_S8x1x80x512_S512x640_S8x1x80x640_3_0_012_1_n_n.lhsBatch by decide), dif_pos (show (0 : Fin S8x1x80x512.rank) ∈ dot_S8x1x80x512_S512x640_S8x1x80x640_3_0_012_1_n_n.lhsNonContracting by decide)]
  rfl
theorem lhs_pn_1 (i : S8x1x80x640.Idx) (q : dot_S8x1x80x512_S512x640_S8x1x80x640_3_0_012_1_n_n.contr.Idx) :
    (dot_S8x1x80x512_S512x640_S8x1x80x640_3_0_012_1_n_n.lhsIdx i q 1).val = (i 1).val := by
  unfold DotDims.lhsIdx
  rw [dif_neg (show ¬(1 : Fin S8x1x80x512.rank) ∈ dot_S8x1x80x512_S512x640_S8x1x80x640_3_0_012_1_n_n.lhsBatch by decide), dif_pos (show (1 : Fin S8x1x80x512.rank) ∈ dot_S8x1x80x512_S512x640_S8x1x80x640_3_0_012_1_n_n.lhsNonContracting by decide)]
  rfl
theorem lhs_pn_2 (i : S8x1x80x640.Idx) (q : dot_S8x1x80x512_S512x640_S8x1x80x640_3_0_012_1_n_n.contr.Idx) :
    (dot_S8x1x80x512_S512x640_S8x1x80x640_3_0_012_1_n_n.lhsIdx i q 2).val = (i 2).val := by
  unfold DotDims.lhsIdx
  rw [dif_neg (show ¬(2 : Fin S8x1x80x512.rank) ∈ dot_S8x1x80x512_S512x640_S8x1x80x640_3_0_012_1_n_n.lhsBatch by decide), dif_pos (show (2 : Fin S8x1x80x512.rank) ∈ dot_S8x1x80x512_S512x640_S8x1x80x640_3_0_012_1_n_n.lhsNonContracting by decide)]
  rfl
theorem lhs_pn_3 (i : S8x1x80x640.Idx) (q : dot_S8x1x80x512_S512x640_S8x1x80x640_3_0_012_1_n_n.contr.Idx) :
    (dot_S8x1x80x512_S512x640_S8x1x80x640_3_0_012_1_n_n.lhsIdx i q 3).val = (q ⟨0, by decide⟩).val :=
  dot_S8x1x80x512_S512x640_S8x1x80x640_3_0_012_1_n_n.lhsIdx_val_of_single rfl i q
theorem rhs_pn_0 (i : S8x1x80x640.Idx) (q : dot_S8x1x80x512_S512x640_S8x1x80x640_3_0_012_1_n_n.contr.Idx) :
    (dot_S8x1x80x512_S512x640_S8x1x80x640_3_0_012_1_n_n.rhsIdx i q 0).val = (q ⟨0, by decide⟩).val :=
  dot_S8x1x80x512_S512x640_S8x1x80x640_3_0_012_1_n_n.rhsIdx_val_of_single rfl i q
theorem rhs_pn_1 (i : S8x1x80x640.Idx) (q : dot_S8x1x80x512_S512x640_S8x1x80x640_3_0_012_1_n_n.contr.Idx) :
    (dot_S8x1x80x512_S512x640_S8x1x80x640_3_0_012_1_n_n.rhsIdx i q 1).val = (i 3).val := by
  unfold DotDims.rhsIdx
  rw [dif_neg (show ¬(1 : Fin S512x640.rank) ∈ dot_S8x1x80x512_S512x640_S8x1x80x640_3_0_012_1_n_n.rhsBatch by decide), dif_pos (show (1 : Fin S512x640.rank) ∈ dot_S8x1x80x512_S512x640_S8x1x80x640_3_0_012_1_n_n.rhsNonContracting by decide)]
  rfl

/-! ## The two contractions as sums over the feature axis -/

/-- The first stream's row (b, r, s) against column `o` of a weight half. -/
theorem dot_tn (x : FVec Ideal S8x300x1x512 .f32) (w : FVec Ideal S512x640 .f32) (b : Fin 8) (r : Fin 300) (s : Fin 1) (o : Fin 640) :
    Host.dotGeneral dot_S8x300x1x512_S512x640_S8x300x1x640_3_0_012_1_n_n none x w (ix4 b r s o)
      = ∑ h : Fin 512, x (ix4 b r s h) * w (ix2 h o) := by
  simp only [Host.dotGeneral]
  rw [Ideal.dotGeneral_apply, ← Equiv.sum_comp (ValueIdx.contrEquiv1 dot_S8x300x1x512_S512x640_S8x300x1x640_3_0_012_1_n_n 512 rfl rfl).symm]
  refine Finset.sum_congr rfl fun k _ => ?_
  have hk := ValueIdx.contrEquiv1_symm_val dot_S8x300x1x512_S512x640_S8x300x1x640_3_0_012_1_n_n 512 rfl rfl k
  have el : dot_S8x300x1x512_S512x640_S8x300x1x640_3_0_012_1_n_n.lhsIdx (ix4 b r s o) ((ValueIdx.contrEquiv1 dot_S8x300x1x512_S512x640_S8x300x1x640_3_0_012_1_n_n 512 rfl rfl).symm k) = ix4 b r s k := funext fun a => Fin.ext (by
    match a with
    | ⟨0, _⟩ => exact lhs_tn_0 _ _
    | ⟨1, _⟩ => exact lhs_tn_1 _ _
    | ⟨2, _⟩ => exact lhs_tn_2 _ _
    | ⟨3, _⟩ => exact (lhs_tn_3 _ _).trans hk)
  have er : dot_S8x300x1x512_S512x640_S8x300x1x640_3_0_012_1_n_n.rhsIdx (ix4 b r s o) ((ValueIdx.contrEquiv1 dot_S8x300x1x512_S512x640_S8x300x1x640_3_0_012_1_n_n 512 rfl rfl).symm k) = ix2 k o := funext fun a => Fin.ext (by
    match a with
    | ⟨0, _⟩ => exact (rhs_tn_0 _ _).trans hk
    | ⟨1, _⟩ => exact rhs_tn_1 _ _)
  rw [el, er]

/-- The second stream's row (b, r, s) against column `o` of a weight half. -/
theorem dot_pn (x : FVec Ideal S8x1x80x512 .f32) (w : FVec Ideal S512x640 .f32) (b : Fin 8) (r : Fin 1) (s : Fin 80) (o : Fin 640) :
    Host.dotGeneral dot_S8x1x80x512_S512x640_S8x1x80x640_3_0_012_1_n_n none x w (ix4 b r s o)
      = ∑ h : Fin 512, x (ix4 b r s h) * w (ix2 h o) := by
  simp only [Host.dotGeneral]
  rw [Ideal.dotGeneral_apply, ← Equiv.sum_comp (ValueIdx.contrEquiv1 dot_S8x1x80x512_S512x640_S8x1x80x640_3_0_012_1_n_n 512 rfl rfl).symm]
  refine Finset.sum_congr rfl fun k _ => ?_
  have hk := ValueIdx.contrEquiv1_symm_val dot_S8x1x80x512_S512x640_S8x1x80x640_3_0_012_1_n_n 512 rfl rfl k
  have el : dot_S8x1x80x512_S512x640_S8x1x80x640_3_0_012_1_n_n.lhsIdx (ix4 b r s o) ((ValueIdx.contrEquiv1 dot_S8x1x80x512_S512x640_S8x1x80x640_3_0_012_1_n_n 512 rfl rfl).symm k) = ix4 b r s k := funext fun a => Fin.ext (by
    match a with
    | ⟨0, _⟩ => exact lhs_pn_0 _ _
    | ⟨1, _⟩ => exact lhs_pn_1 _ _
    | ⟨2, _⟩ => exact lhs_pn_2 _ _
    | ⟨3, _⟩ => exact (lhs_pn_3 _ _).trans hk)
  have er : dot_S8x1x80x512_S512x640_S8x1x80x640_3_0_012_1_n_n.rhsIdx (ix4 b r s o) ((ValueIdx.contrEquiv1 dot_S8x1x80x512_S512x640_S8x1x80x640_3_0_012_1_n_n 512 rfl rfl).symm k) = ix2 k o := funext fun a => Fin.ext (by
    match a with
    | ⟨0, _⟩ => exact (rhs_pn_0 _ _).trans hk
    | ⟨1, _⟩ => exact rhs_pn_1 _ _)
  rw [el, er]

/-! ## The slices and broadcasts, each read at one index -/

/-- The top half of the weight matrix: entry (h, o) is the matrix at (h, o). -/
theorem slice_top (W : S1024x640.Idx → EReal) (hs : S1024x640.Slices ![0, 0] S512x640) (h : Fin 512) (o : Fin 640) :
    extractStridedSlice S512x640 ![0, 0] W hs (ix2 h o) = W (ix2 (rowTop h) o) :=
  extractStridedSlice_apply _ W hs _ _ (fun a => by
    match a with
    | ⟨0, _⟩ => show h.val = 0 + h.val; omega
    | ⟨1, _⟩ => show o.val = 0 + o.val; omega)

/-- The bottom half: entry (h, o) is the matrix at (512 + h, o). -/
theorem slice_bot (W : S1024x640.Idx → EReal) (hs : S1024x640.Slices ![512, 0] S512x640) (h : Fin 512) (o : Fin 640) :
    extractStridedSlice S512x640 ![512, 0] W hs (ix2 h o) = W (ix2 (rowBot h) o) :=
  extractStridedSlice_apply _ W hs _ _ (fun a => by
    match a with
    | ⟨0, _⟩ => show 512 + h.val = 512 + h.val; rfl
    | ⟨1, _⟩ => show o.val = 0 + o.val; omega)

/-- The first projection [8, 300, 1, 640] broadcast over the third axis. -/
theorem bcast_tn (x : S8x300x1x640.Idx → EReal) (hb : S8x300x1x640.BroadcastsInDim S8x300x80x640 ![0, 1, 2, 3])
    (b : Fin 8) (t : Fin 300) (u : Fin 80) (o : Fin 640) :
    broadcastInDim S8x300x80x640 ![0, 1, 2, 3] hb x (ix4 b t u o) = x (ix4 b t (0 : Fin 1) o) :=
  broadcastInDim_apply _ hb x _ _ (fun a => by
    match a with
    | ⟨0, _⟩ => show b.val = if (8 : ℕ) = 1 then 0 else b.val; rw [if_neg (by decide)]
    | ⟨1, _⟩ => show t.val = if (300 : ℕ) = 1 then 0 else t.val; rw [if_neg (by decide)]
    | ⟨2, _⟩ => show (0 : ℕ) = if (1 : ℕ) = 1 then 0 else u.val; rw [if_pos rfl]
    | ⟨3, _⟩ => show o.val = if (640 : ℕ) = 1 then 0 else o.val; rw [if_neg (by decide)])

/-- The second projection [8, 1, 80, 640] broadcast over the second axis. -/
theorem bcast_pn (x : S8x1x80x640.Idx → EReal) (hb : S8x1x80x640.BroadcastsInDim S8x300x80x640 ![0, 1, 2, 3])
    (b : Fin 8) (t : Fin 300) (u : Fin 80) (o : Fin 640) :
    broadcastInDim S8x300x80x640 ![0, 1, 2, 3] hb x (ix4 b t u o) = x (ix4 b (0 : Fin 1) u o) :=
  broadcastInDim_apply _ hb x _ _ (fun a => by
    match a with
    | ⟨0, _⟩ => show b.val = if (8 : ℕ) = 1 then 0 else b.val; rw [if_neg (by decide)]
    | ⟨1, _⟩ => show (0 : ℕ) = if (1 : ℕ) = 1 then 0 else t.val; rw [if_pos rfl]
    | ⟨2, _⟩ => show u.val = if (80 : ℕ) = 1 then 0 else u.val; rw [if_neg (by decide)]
    | ⟨3, _⟩ => show o.val = if (640 : ℕ) = 1 then 0 else o.val; rw [if_neg (by decide)])

/-- The bias row [1, 1, 1, 640] broadcast over the three leading axes. -/
theorem bcast_row (x : S1x1x1x640.Idx → EReal) (hb : S1x1x1x640.BroadcastsInDim S8x300x80x640 ![0, 1, 2, 3])
    (b : Fin 8) (t : Fin 300) (u : Fin 80) (o : Fin 640) :
    broadcastInDim S8x300x80x640 ![0, 1, 2, 3] hb x (ix4 b t u o) = x (ix4 (0 : Fin 1) (0 : Fin 1) (0 : Fin 1) o) :=
  broadcastInDim_apply _ hb x _ _ (fun a => by
    match a with
    | ⟨0, _⟩ => show (0 : ℕ) = if (1 : ℕ) = 1 then 0 else b.val; rw [if_pos rfl]
    | ⟨1, _⟩ => show (0 : ℕ) = if (1 : ℕ) = 1 then 0 else t.val; rw [if_pos rfl]
    | ⟨2, _⟩ => show (0 : ℕ) = if (1 : ℕ) = 1 then 0 else u.val; rw [if_pos rfl]
    | ⟨3, _⟩ => show o.val = if (640 : ℕ) = 1 then 0 else o.val; rw [if_neg (by decide)])

/-- The bias [640] placed on the last axis of [1, 1, 1, 640]. -/
theorem bcast_bias (x : S640.Idx → EReal) (hb : S640.BroadcastsInDim S1x1x1x640 ![3]) (o : Fin 640) :
    broadcastInDim S1x1x1x640 ![3] hb x (ix4 (0 : Fin 1) (0 : Fin 1) (0 : Fin 1) o) = x (ix1 o) :=
  broadcastInDim_apply _ hb x _ _ (fun a => by
    match a with
    | ⟨0, _⟩ => show o.val = if (640 : ℕ) = 1 then 0 else o.val; rw [if_neg (by decide)])

/-- A scalar broadcast to the result's shape is the scalar at every index. -/
theorem bcast_scalar (x : S_.Idx → EReal) (hb : S_.BroadcastsInDim S8x300x80x640 ![]) (i : S8x300x80x640.Idx) :
    broadcastInDim S8x300x80x640 ![] hb x i = x ix0 :=
  broadcastInDim_apply _ hb x _ _ (fun a => a.elim0)

/-! ## The joint pre-activation and the result -/

/-- The reference's joint pre-activation at (b, t, u, o) is the specification's. -/
theorem joint_apply (x0 : FVec Ideal S8x300x1x512 .f32) (x1 : FVec Ideal S8x1x80x512 .f32) (x2 : FVec Ideal S1024x640 .f32)
    (x3 : FVec Ideal S640 .f32) (b : Fin 8) (t : Fin 300) (u : Fin 80) (o : Fin 640) :
    RefRun.joint x0 x1 x2 x3 (ix4 b t u o) = JointSpec.joint x0 x1 x2 x3 b t u o := by
  unfold RefRun.joint JointSpec.joint projT projP
  rw [addf_apply, addf_apply, bcast_tn, dot_tn, bcast_pn, dot_pn, bcast_row, bcast_bias]
  simp only [slice_top, slice_bot]

/-- The reference's result is the specification of its four arguments. -/
theorem out_eq_G (x0 : FVec Ideal S8x300x1x512 .f32) (x1 : FVec Ideal S8x1x80x512 .f32) (x2 : FVec Ideal S1024x640 .f32)
    (x3 : FVec Ideal S640 .f32) : RefRun.out x0 x1 x2 x3 = G x0 x1 x2 x3 := by
  funext i
  obtain ⟨b, t, u, o, rfl⟩ : ∃ (b : Fin 8) (t : Fin 300) (u : Fin 80) (o : Fin 640), i = ix4 b t u o :=
    ⟨i 0, i 1, i 2, i 3, eq_ix4 i⟩
  unfold RefRun.out G lrelu
  rw [select_apply, cmpf_apply, mulf_apply, bcast_scalar, bcast_scalar, joint_apply]
  rfl

end Cert.ReferenceIdeal.RefValue

end
-- ==== Proof.KernelPayload.lean ====
/-
  What the kernel body stores, read at one element of its [1, 50, 80, 640] block.

  The body casts its two activation blocks to matrices, [50, 512] and [80, 512], multiplies each into a zero
  accumulator with one half of the weight block, re-lays the two products as [50, 1, 640] and [1, 80, 640],
  broadcasts both and the bias to [50, 80, 640], adds, and applies the rectifier.  At the ideal values a product
  into a zero accumulator is the plain sum over the contracted axis, the narrowing of the operands is the
  identity, and every cast and broadcast reads its operand at one index; so element (0, p, u, o) of the stored
  block is the rectifier of

      (∑ h, tn[0, p, 0, h] · wt[h, o]) + (∑ h, pn[0, 0, u, h] · wp[h, o]) + bias[o].
-/
import proofs.«169859_j74981539053948_1_alg».proof.Proof.Gen.KernelIdeal.Skeleton
import proofs.«169859_j74981539053948_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.JointSpec

/-! ## The two products' operand indices, axis by axis -/

theorem lhs_tn_0 (i : S50x640.Idx) (q : dot_S50x512_S512x640_S50x640_1_0_0_1_n_n.contr.Idx) :
    (dot_S50x512_S512x640_S50x640_1_0_0_1_n_n.lhsIdx i q 0).val = (i 0).val := by
  unfold DotDims.lhsIdx
  rw [dif_neg (show ¬(0 : Fin S50x512.rank) ∈ dot_S50x512_S512x640_S50x640_1_0_0_1_n_n.lhsBatch by decide), dif_pos (show (0 : Fin S50x512.rank) ∈ dot_S50x512_S512x640_S50x640_1_0_0_1_n_n.lhsNonContracting by decide)]
  rfl
theorem lhs_tn_1 (i : S50x640.Idx) (q : dot_S50x512_S512x640_S50x640_1_0_0_1_n_n.contr.Idx) :
    (dot_S50x512_S512x640_S50x640_1_0_0_1_n_n.lhsIdx i q 1).val = (q ⟨0, by decide⟩).val :=
  dot_S50x512_S512x640_S50x640_1_0_0_1_n_n.lhsIdx_val_of_single rfl i q
theorem rhs_tn_0 (i : S50x640.Idx) (q : dot_S50x512_S512x640_S50x640_1_0_0_1_n_n.contr.Idx) :
    (dot_S50x512_S512x640_S50x640_1_0_0_1_n_n.rhsIdx i q 0).val = (q ⟨0, by decide⟩).val :=
  dot_S50x512_S512x640_S50x640_1_0_0_1_n_n.rhsIdx_val_of_single rfl i q
theorem rhs_tn_1 (i : S50x640.Idx) (q : dot_S50x512_S512x640_S50x640_1_0_0_1_n_n.contr.Idx) :
    (dot_S50x512_S512x640_S50x640_1_0_0_1_n_n.rhsIdx i q 1).val = (i 1).val := by
  unfold DotDims.rhsIdx
  rw [dif_neg (show ¬(1 : Fin S512x640.rank) ∈ dot_S50x512_S512x640_S50x640_1_0_0_1_n_n.rhsBatch by decide), dif_pos (show (1 : Fin S512x640.rank) ∈ dot_S50x512_S512x640_S50x640_1_0_0_1_n_n.rhsNonContracting by decide)]
  rfl

theorem lhs_pn_0 (i : S80x640.Idx) (q : dot_S80x512_S512x640_S80x640_1_0_0_1_n_n.contr.Idx) :
    (dot_S80x512_S512x640_S80x640_1_0_0_1_n_n.lhsIdx i q 0).val = (i 0).val := by
  unfold DotDims.lhsIdx
  rw [dif_neg (show ¬(0 : Fin S80x512.rank) ∈ dot_S80x512_S512x640_S80x640_1_0_0_1_n_n.lhsBatch by decide), dif_pos (show (0 : Fin S80x512.rank) ∈ dot_S80x512_S512x640_S80x640_1_0_0_1_n_n.lhsNonContracting by decide)]
  rfl
theorem lhs_pn_1 (i : S80x640.Idx) (q : dot_S80x512_S512x640_S80x640_1_0_0_1_n_n.contr.Idx) :
    (dot_S80x512_S512x640_S80x640_1_0_0_1_n_n.lhsIdx i q 1).val = (q ⟨0, by decide⟩).val :=
  dot_S80x512_S512x640_S80x640_1_0_0_1_n_n.lhsIdx_val_of_single rfl i q
theorem rhs_pn_0 (i : S80x640.Idx) (q : dot_S80x512_S512x640_S80x640_1_0_0_1_n_n.contr.Idx) :
    (dot_S80x512_S512x640_S80x640_1_0_0_1_n_n.rhsIdx i q 0).val = (q ⟨0, by decide⟩).val :=
  dot_S80x512_S512x640_S80x640_1_0_0_1_n_n.rhsIdx_val_of_single rfl i q
theorem rhs_pn_1 (i : S80x640.Idx) (q : dot_S80x512_S512x640_S80x640_1_0_0_1_n_n.contr.Idx) :
    (dot_S80x512_S512x640_S80x640_1_0_0_1_n_n.rhsIdx i q 1).val = (i 1).val := by
  unfold DotDims.rhsIdx
  rw [dif_neg (show ¬(1 : Fin S512x640.rank) ∈ dot_S80x512_S512x640_S80x640_1_0_0_1_n_n.rhsBatch by decide), dif_pos (show (1 : Fin S512x640.rank) ∈ dot_S80x512_S512x640_S80x640_1_0_0_1_n_n.rhsNonContracting by decide)]
  rfl

/-! ## The two products as sums over the feature axis -/

/-- Row `r` of the first activation matrix against column `o` of a weight half. -/
theorem matmul_tn (x : FVec Ideal S50x512 .bf16) (w : FVec Ideal S512x640 .bf16) (r : Fin 50) (o : Fin 640) :
    matmul dot_S50x512_S512x640_S50x640_1_0_0_1_n_n none x w (constant S50x640 .f32 0x00000000#32) (ix2 r o)
      = ∑ h : Fin 512, x (ix2 r h) * w (ix2 h o) := by
  simp only [matmul]
  rw [Ideal.matmul_constant_zero_apply, ← Equiv.sum_comp (ValueIdx.contrEquiv1 dot_S50x512_S512x640_S50x640_1_0_0_1_n_n 512 rfl rfl).symm]
  refine Finset.sum_congr rfl fun k _ => ?_
  have hk := ValueIdx.contrEquiv1_symm_val dot_S50x512_S512x640_S50x640_1_0_0_1_n_n 512 rfl rfl k
  have el : dot_S50x512_S512x640_S50x640_1_0_0_1_n_n.lhsIdx (ix2 r o) ((ValueIdx.contrEquiv1 dot_S50x512_S512x640_S50x640_1_0_0_1_n_n 512 rfl rfl).symm k) = ix2 r k := funext fun a => Fin.ext (by
    match a with
    | ⟨0, _⟩ => exact lhs_tn_0 _ _
    | ⟨1, _⟩ => exact (lhs_tn_1 _ _).trans hk)
  have er : dot_S50x512_S512x640_S50x640_1_0_0_1_n_n.rhsIdx (ix2 r o) ((ValueIdx.contrEquiv1 dot_S50x512_S512x640_S50x640_1_0_0_1_n_n 512 rfl rfl).symm k) = ix2 k o := funext fun a => Fin.ext (by
    match a with
    | ⟨0, _⟩ => exact (rhs_tn_0 _ _).trans hk
    | ⟨1, _⟩ => exact rhs_tn_1 _ _)
  rw [el, er]

/-- Row `r` of the second activation matrix against column `o` of a weight half. -/
theorem matmul_pn (x : FVec Ideal S80x512 .bf16) (w : FVec Ideal S512x640 .bf16) (r : Fin 80) (o : Fin 640) :
    matmul dot_S80x512_S512x640_S80x640_1_0_0_1_n_n none x w (constant S80x640 .f32 0x00000000#32) (ix2 r o)
      = ∑ h : Fin 512, x (ix2 r h) * w (ix2 h o) := by
  simp only [matmul]
  rw [Ideal.matmul_constant_zero_apply, ← Equiv.sum_comp (ValueIdx.contrEquiv1 dot_S80x512_S512x640_S80x640_1_0_0_1_n_n 512 rfl rfl).symm]
  refine Finset.sum_congr rfl fun k _ => ?_
  have hk := ValueIdx.contrEquiv1_symm_val dot_S80x512_S512x640_S80x640_1_0_0_1_n_n 512 rfl rfl k
  have el : dot_S80x512_S512x640_S80x640_1_0_0_1_n_n.lhsIdx (ix2 r o) ((ValueIdx.contrEquiv1 dot_S80x512_S512x640_S80x640_1_0_0_1_n_n 512 rfl rfl).symm k) = ix2 r k := funext fun a => Fin.ext (by
    match a with
    | ⟨0, _⟩ => exact lhs_pn_0 _ _
    | ⟨1, _⟩ => exact (lhs_pn_1 _ _).trans hk)
  have er : dot_S80x512_S512x640_S80x640_1_0_0_1_n_n.rhsIdx (ix2 r o) ((ValueIdx.contrEquiv1 dot_S80x512_S512x640_S80x640_1_0_0_1_n_n 512 rfl rfl).symm k) = ix2 k o := funext fun a => Fin.ext (by
    match a with
    | ⟨0, _⟩ => exact (rhs_pn_0 _ _).trans hk
    | ⟨1, _⟩ => exact rhs_pn_1 _ _)
  rw [el, er]

/-! ## The casts and broadcasts of the body, each read at one index -/

/-- The first activation block [1, 50, 1, 512] viewed as the matrix [50, 512]: entry (p, h) is (0, p, 0, h). -/
theorem rows_tn (x : S1x50x1x512.Idx → EReal) (hc : S1x50x1x512.ShapeCasts S50x512) (p : Fin 50) (h : Fin 512) :
    shapeCast S50x512 x hc (ix2 p h) = x (ix4 (0 : Fin 1) p (0 : Fin 1) h) :=
  shapeCast_apply x hc _ _ (by
    rw [Shape.rowMajor_val_four, Shape.rowMajor_val_two]
    show ((0 * 50 + p.val) * 1 + 0) * 512 + h.val = p.val * 512 + h.val
    omega)

/-- The second activation block [1, 1, 80, 512] viewed as the matrix [80, 512]: entry (u, h) is (0, 0, u, h). -/
theorem rows_pn (x : S1x1x80x512.Idx → EReal) (hc : S1x1x80x512.ShapeCasts S80x512) (u : Fin 80) (h : Fin 512) :
    shapeCast S80x512 x hc (ix2 u h) = x (ix4 (0 : Fin 1) (0 : Fin 1) u h) :=
  shapeCast_apply x hc _ _ (by
    rw [Shape.rowMajor_val_four, Shape.rowMajor_val_two]
    show ((0 * 1 + 0) * 80 + u.val) * 512 + h.val = u.val * 512 + h.val
    omega)

/-- The first product [50, 640] re-laid [50, 1, 640]: entry (p, 0, o) is (p, o). -/
theorem cast_tn (x : S50x640.Idx → EReal) (hc : S50x640.ShapeCasts S50x1x640) (p : Fin 50) (o : Fin 640) :
    shapeCast S50x1x640 x hc (ix3 p (0 : Fin 1) o) = x (ix2 p o) :=
  shapeCast_apply x hc _ _ (by
    rw [Shape.rowMajor_val_two, Shape.rowMajor_val_three]
    show p.val * 640 + o.val = (p.val * 1 + 0) * 640 + o.val
    omega)

/-- The second product [80, 640] re-laid [1, 80, 640]: entry (0, u, o) is (u, o). -/
theorem cast_pn (x : S80x640.Idx → EReal) (hc : S80x640.ShapeCasts S1x80x640) (u : Fin 80) (o : Fin 640) :
    shapeCast S1x80x640 x hc (ix3 (0 : Fin 1) u o) = x (ix2 u o) :=
  shapeCast_ab_1ab_apply x hc 0 u o

/-- The bias [640] re-laid [1, 1, 640]: entry (0, 0, o) is o. -/
theorem cast_b (x : S640.Idx → EReal) (hc : S640.ShapeCasts S1x1x640) (o : Fin 640) :
    shapeCast S1x1x640 x hc (ix3 (0 : Fin 1) (0 : Fin 1) o) = x (ix1 o) :=
  shapeCast_apply x hc _ _ (by
    rw [Shape.rowMajor_val_one, Shape.rowMajor_val_three]
    show o.val = (0 * 1 + 0) * 640 + o.val
    omega)

/-- [50, 1, 640] broadcast over the middle axis: entry (p, u, o) is (p, 0, o). -/
theorem bcast_tn (x : S50x1x640.Idx → EReal) (hb : S50x1x640.Broadcasts S50x80x640) (p : Fin 50) (u : Fin 80) (o : Fin 640) :
    broadcastTo S50x80x640 x hb (ix3 p u o) = x (ix3 p (0 : Fin 1) o) :=
  broadcastTo_apply x hb _ _ (fun a => by
    match a with
    | ⟨0, _⟩ => show p.val = if (50 : ℕ) = 1 then 0 else p.val; rw [if_neg (by decide)]
    | ⟨1, _⟩ => show (0 : ℕ) = if (1 : ℕ) = 1 then 0 else u.val; rw [if_pos rfl]
    | ⟨2, _⟩ => show o.val = if (640 : ℕ) = 1 then 0 else o.val; rw [if_neg (by decide)])

/-- [1, 80, 640] broadcast over the leading axis: entry (p, u, o) is (0, u, o). -/
theorem bcast_pn (x : S1x80x640.Idx → EReal) (hb : S1x80x640.Broadcasts S50x80x640) (p : Fin 50) (u : Fin 80) (o : Fin 640) :
    broadcastTo S50x80x640 x hb (ix3 p u o) = x (ix3 (0 : Fin 1) u o) :=
  broadcastTo_apply x hb _ _ (fun a => by
    match a with
    | ⟨0, _⟩ => show (0 : ℕ) = if (1 : ℕ) = 1 then 0 else p.val; rw [if_pos rfl]
    | ⟨1, _⟩ => show u.val = if (80 : ℕ) = 1 then 0 else u.val; rw [if_neg (by decide)]
    | ⟨2, _⟩ => show o.val = if (640 : ℕ) = 1 then 0 else o.val; rw [if_neg (by decide)])

/-- [1, 1, 640] broadcast over both leading axes: entry (p, u, o) is (0, 0, o). -/
theorem bcast_b (x : S1x1x640.Idx → EReal) (hb : S1x1x640.Broadcasts S50x80x640) (p : Fin 50) (u : Fin 80) (o : Fin 640) :
    broadcastTo S50x80x640 x hb (ix3 p u o) = x (ix3 (0 : Fin 1) (0 : Fin 1) o) :=
  broadcastTo_apply x hb _ _ (fun a => by
    match a with
    | ⟨0, _⟩ => show (0 : ℕ) = if (1 : ℕ) = 1 then 0 else p.val; rw [if_pos rfl]
    | ⟨1, _⟩ => show (0 : ℕ) = if (1 : ℕ) = 1 then 0 else u.val; rw [if_pos rfl]
    | ⟨2, _⟩ => show o.val = if (640 : ℕ) = 1 then 0 else o.val; rw [if_neg (by decide)])

/-! ## The joint pre-activation of one block -/

/-- The [50, 80, 640] pre-activation the body forms from its loads: the two products broadcast against each other,
    plus the bias. -/
def jointBlock (v0 : Vec Ideal S1x50x1x512 .f32) (v3 : Vec Ideal S1x1x80x512 .f32) (v6 v8 : Vec Ideal S512x640 .f32)
    (v10 : Vec Ideal S640 .f32) : FVec Ideal S50x80x640 .f32 :=
  addf
    (addf
      (broadcastTo S50x80x640
        (shapeCast S50x1x640
          (matmul dot_S50x512_S512x640_S50x640_1_0_0_1_n_n none
            (truncf .bf16 (shapeCast S50x512 v0 shapeCasts_S1x50x1x512_S50x512) bitsLt_bf16_f32)
            (truncf .bf16 v6 bitsLt_bf16_f32) (constant S50x640 .f32 0x00000000#32))
          shapeCasts_S50x640_S50x1x640)
        broadcasts_S50x1x640_S50x80x640)
      (broadcastTo S50x80x640
        (shapeCast S1x80x640
          (matmul dot_S80x512_S512x640_S80x640_1_0_0_1_n_n none
            (truncf .bf16 (shapeCast S80x512 v3 shapeCasts_S1x1x80x512_S80x512) bitsLt_bf16_f32)
            (truncf .bf16 v8 bitsLt_bf16_f32) (constant S80x640 .f32 0x00000000#32))
          shapeCasts_S80x640_S1x80x640)
        broadcasts_S1x80x640_S50x80x640))
    (broadcastTo S50x80x640 (shapeCast S1x1x640 v10 shapeCasts_S640_S1x1x640) broadcasts_S1x1x640_S50x80x640)

/-- The stored block is the rectifier's three vector operations over that pre-activation, given its leading unit
    axis back. -/
theorem pay_eq (v0 : Vec Ideal S1x50x1x512 .f32) (v3 : Vec Ideal S1x1x80x512 .f32) (v6 v8 : Vec Ideal S512x640 .f32)
    (v10 : Vec Ideal S640 .f32) :
    k0_pay1 v0 v3 v6 v8 v10
      = shapeCast S1x50x80x640
          (select (cmpf .oge (jointBlock v0 v3 v6 v8 v10) (broadcast S50x80x640 (Scalar.ofBits .f32 0x00000000#32)))
            (jointBlock v0 v3 v6 v8 v10)
            (mulf (broadcast S50x80x640 (Scalar.ofBits .f32 0x3C23D70A#32)) (jointBlock v0 v3 v6 v8 v10)))
          shapeCasts_S50x80x640_S1x50x80x640 := rfl

/-- The pre-activation at (p, u, o): row p of the first block against column o of the first weight half, row u of
    the second against the second half, plus the bias at o. -/
theorem jointBlock_apply (v0 : Vec Ideal S1x50x1x512 .f32) (v3 : Vec Ideal S1x1x80x512 .f32) (v6 v8 : Vec Ideal S512x640 .f32)
    (v10 : Vec Ideal S640 .f32) (p : Fin 50) (u : Fin 80) (o : Fin 640) :
    jointBlock v0 v3 v6 v8 v10 (ix3 p u o)
      = ((∑ h : Fin 512, v0 (ix4 (0 : Fin 1) p (0 : Fin 1) h) * v6 (ix2 h o))
          + (∑ h : Fin 512, v3 (ix4 (0 : Fin 1) (0 : Fin 1) u h) * v8 (ix2 h o))) + v10 (ix1 o) := by
  unfold jointBlock
  rw [addf_apply, addf_apply, bcast_tn, cast_tn, matmul_tn, bcast_pn, cast_pn, matmul_pn, bcast_b, cast_b]
  simp only [truncf_apply, rows_tn, rows_pn]

/-! ## The stored block at an element -/

/-- Element (0, p, u, o) of what the body stores: the rectifier of the two row-by-column sums plus the bias entry. -/
theorem pay_apply (v0 : Vec Ideal S1x50x1x512 .f32) (v3 : Vec Ideal S1x1x80x512 .f32) (v6 v8 : Vec Ideal S512x640 .f32)
    (v10 : Vec Ideal S640 .f32) (p : Fin 50) (u : Fin 80) (o : Fin 640) :
    k0_pay1 v0 v3 v6 v8 v10 (ix4 (0 : Fin 1) p u o)
      = lrelu (((∑ h : Fin 512, v0 (ix4 (0 : Fin 1) p (0 : Fin 1) h) * v6 (ix2 h o))
          + (∑ h : Fin 512, v3 (ix4 (0 : Fin 1) (0 : Fin 1) u h) * v8 (ix2 h o))) + v10 (ix1 o)) := by
  rw [pay_eq, shapeCast_abc_1abc_apply, select_apply, cmpf_apply, mulf_apply, broadcast_apply, broadcast_apply,
    jointBlock_apply]
  rfl

end Cert.KernelIdeal.Payload

end
-- ==== Proof.KernelFinal.lean ====
/-
  From blocks to the array: after the kernel's run the result array is the specification of the argument arrays.

  The grid is 8 × 6.  Point (b, s) stages row-block (b, s) of the first stream (50 of its 300 rows), the whole of
  batch b of the second stream, the whole weight matrix and the whole bias, and writes back block (b, s) of the
  result: 50 × 80 × 640 entries.  Entry (0, p, u, o) of that block is the rectifier of row p of the staged first
  block against the top half of the weights, row u of the second against the bottom half, plus the bias — which is
  the specification at array index (b, 50·s + p, u, o), because each staged block reads its array at the block's
  offset (index × block size on every axis) and the two weight loads read the staged matrix at row offsets 0 and
  512.  The 48 blocks tile the result array (the block holding (b, t, u, o) is (b, t / 50)), so the array ends
  holding the specification everywhere.
-/
import proofs.«169859_j74981539053948_1_alg».proof.Proof.Gen.KernelIdeal.Value
import proofs.«169859_j74981539053948_1_alg».proof.Proof.KernelPayload

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.JointSpec Cert.KernelIdeal.Payload
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros1 : (![0] : Fin 1 → Nat) = fun _ => 0 := funext fun a => by fin_cases a <;> rfl

/-! ## The two loads of the staged weight matrix -/

/-- The load of rows 0–511 of the staged matrix reads it at the same row: its top half. -/
theorem ld_top (x : Vec Ideal S1024x640 .f32) (h : Fin 512) (o : Fin 640) :
    View.ld x r0_2 (ix2 h o) = x (ix2 (rowTop h) o) :=
  congrArg x (funext fun a => Fin.ext (by
    match a with
    | ⟨0, _⟩ => show 0 + 1 * h.val = h.val; omega
    | ⟨1, _⟩ => show 0 + 1 * o.val = o.val; omega))

/-- The load of rows 512–1023 reads it 512 rows down: its bottom half. -/
theorem ld_bot (x : Vec Ideal S1024x640 .f32) (h : Fin 512) (o : Fin 640) :
    View.ld x r0_3 (ix2 h o) = x (ix2 (rowBot h) o) :=
  congrArg x (funext fun a => Fin.ext (by
    match a with
    | ⟨0, _⟩ => show 512 + 1 * h.val = 512 + h.val; omega
    | ⟨1, _⟩ => show 0 + 1 * o.val = o.val; omega))

/-! ## One block against the specification, over plain vectors -/

/-- If a first-stream block holds rows `50·s + p` of batch `b`, a second-stream block holds batch `b`, and the
    weight and bias blocks are the whole arrays, then what the body stores at block index `j` is the specification at
    the array index `i` whose coordinates are (b, 50·s + j₁, j₂, j₃). -/
theorem block_eq (x0 : Vec Ideal S1x50x1x512 .f32) (x1 : Vec Ideal S1x1x80x512 .f32) (x2 : Vec Ideal S1024x640 .f32)
    (x3 : Vec Ideal S640 .f32) (a0 : STn.Idx → EReal) (a1 : SPn.Idx → EReal) (a2 : SW.Idx → EReal) (a3 : SB.Idx → EReal)
    (b : Fin 8) (s : ℕ) (hs : s * 50 + 50 ≤ 300)
    (h0 : ∀ (p : Fin 50) (h : Fin 512), x0 (ix4 (0 : Fin 1) p (0 : Fin 1) h) = a0 (ix4 b ⟨s * 50 + p.val, by omega⟩ (0 : Fin 1) h))
    (h1 : ∀ (u : Fin 80) (h : Fin 512), x1 (ix4 (0 : Fin 1) (0 : Fin 1) u h) = a1 (ix4 b (0 : Fin 1) u h))
    (h2 : x2 = a2) (h3 : x3 = a3)
    (j : S1x50x80x640.Idx) (i : SOut.Idx) (hi0 : (i 0).val = b.val) (hi1 : (i 1).val = s * 50 + (j 1).val)
    (hi2 : (i 2).val = (j 2).val) (hi3 : (i 3).val = (j 3).val) :
    k0_pay1 x0 x1 (View.ld x2 r0_2) (View.ld x2 r0_3) x3 j = G a0 a1 a2 a3 i := by
  obtain ⟨z, p, u, o, rfl⟩ : ∃ (z : Fin 1) (p : Fin 50) (u : Fin 80) (o : Fin 640), j = ix4 z p u o :=
    ⟨j 0, j 1, j 2, j 3, eq_ix4 j⟩
  obtain rfl : z = 0 := Subsingleton.elim _ _
  have e0 : i 0 = b := Fin.ext hi0
  have e1 : i 1 = (⟨s * 50 + p.val, by omega⟩ : Fin 300) := Fin.ext hi1
  have e2 : i 2 = u := Fin.ext hi2
  have e3 : i 3 = o := Fin.ext hi3
  rw [pay_apply]
  unfold G joint projT projP
  rw [e0, e1, e2, e3]
  subst h2 h3
  refine congrArg lrelu (congrArg₂ (· + ·) (congrArg₂ (· + ·) ?_ ?_) rfl)
  · refine Finset.sum_congr rfl fun h _ => ?_
    rw [h0, ld_top]
  · refine Finset.sum_congr rfl fun h _ => ?_
    rw [h1, ld_bot]

/-! ## The printed index maps over the grid -/

/-- The input windows move with the output window: the first stream's block index is the output's on the two
    leading axes, the second stream's on the first; every other block index is 0; the output's stay in range. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 4) ≤ 7 ∧ win0_4.index t (1 : Fin 4) ≤ 5
    ∧ win0_4.index t (2 : Fin 4) = 0 ∧ win0_4.index t (3 : Fin 4) = 0 :=
  (by decide +kernel : ∀ t : Fin grid0.N, _)

/-- Every block (b, s) of the result is some point's. -/
theorem idx_onto : ∀ (q0 : Fin 8) (q1 : Fin 6), ∃ t : Fin cfg0.N, win0_4.index t = ![q0.val, q1.val, 0, 0] :=
  (by decide +kernel : ∀ (q0 : Fin 8) (q1 : Fin 6), ∃ t : Fin grid0.N, win0_4.index t = ![q0.val, q1.val, 0, 0])

/-! ## What a point writes back -/

/-- Point `t` writes back block `t` of the specification of the argument arrays. -/
theorem flushed_eq (c : Dev nD) (t : Fin cfg0.N) :
    (dats m 0 c).flushed 4 t
      = ((cfg0.win 4).blk t).view.read (Elt Ideal)
          (G (V m c main_arg0) (V m c main_arg1) (V m c main_arg2) (V m c main_arg3)) := by
  rw [Value.flushed4]
  unfold out0_4
  rw [View.canon_unit_zero zeros4]
  simp only [View.ld_unit_zero (S := S1x50x1x512) zeros4, View.ld_unit_zero (S := S1x1x80x512) zeros4,
    View.ld_unit_zero (S := S640) zeros1]
  obtain ⟨f00, f01, f02, f03, f10, f11, f12, f13, f20, f21, f30, g0, g1, g2, g3⟩ := idx_facts t
  funext j
  show k0_pay1 (iblk m c 0 t) (iblk m c 1 t) (View.ld (iblk m c 2 t) r0_2) (View.ld (iblk m c 2 t) r0_3) (iblk m c 3 t) j
    = G (V m c main_arg0) (V m c main_arg1) (V m c main_arg2) (V m c main_arg3) (((cfg0.win 4).blk t).view.emb j)
  refine block_eq (iblk m c 0 t) (iblk m c 1 t) (iblk m c 2 t) (iblk m c 3 t)
    (V m c main_arg0) (V m c main_arg1) (V m c main_arg2) (V m c main_arg3)
    ⟨win0_4.index t (0 : Fin 4), by omega⟩ (win0_4.index t (1 : Fin 4)) (by omega) ?_ ?_ ?_ ?_ j _ ?_ ?_ ?_ ?_
  · intro p h
    show V m c main_arg0 (((cfg0.win 0).blk t).view.emb (ix4 (0 : Fin 1) p (0 : Fin 1) h)) = _
    refine congrArg (V m c main_arg0) (funext fun a => Fin.ext ?_)
    match a with
    | ⟨0, _⟩ => show win0_0.index t (0 : Fin 4) * 1 + 1 * 0 = win0_4.index t (0 : Fin 4); omega
    | ⟨1, _⟩ => show win0_0.index t (1 : Fin 4) * 50 + 1 * p.val = win0_4.index t (1 : Fin 4) * 50 + p.val; omega
    | ⟨2, _⟩ => show win0_0.index t (2 : Fin 4) * 1 + 1 * 0 = 0; omega
    | ⟨3, _⟩ => show win0_0.index t (3 : Fin 4) * 512 + 1 * h.val = h.val; omega
  · intro u h
    show V m c main_arg1 (((cfg0.win 1).blk t).view.emb (ix4 (0 : Fin 1) (0 : Fin 1) u h)) = _
    refine congrArg (V m c main_arg1) (funext fun a => Fin.ext ?_)
    match a with
    | ⟨0, _⟩ => show win0_1.index t (0 : Fin 4) * 1 + 1 * 0 = win0_4.index t (0 : Fin 4); omega
    | ⟨1, _⟩ => show win0_1.index t (1 : Fin 4) * 1 + 1 * 0 = 0; omega
    | ⟨2, _⟩ => show win0_1.index t (2 : Fin 4) * 80 + 1 * u.val = u.val; omega
    | ⟨3, _⟩ => show win0_1.index t (3 : Fin 4) * 512 + 1 * h.val = h.val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 1024 + 1 * (y 0).val = (y 0).val; omega
    | ⟨1, _⟩ => show win0_2.index t (1 : Fin 2) * 640 + 1 * (y 1).val = (y 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 1) * 640 + 1 * (y 0).val = (y 0).val; omega
  · show win0_4.index t (0 : Fin 4) * 1 + 1 * (j 0).val = win0_4.index t (0 : Fin 4)
    have hj : (j 0).val < 1 := (j 0).isLt
    omega
  · show win0_4.index t (1 : Fin 4) * 50 + 1 * (j 1).val = win0_4.index t (1 : Fin 4) * 50 + (j 1).val
    omega
  · show win0_4.index t (2 : Fin 4) * 80 + 1 * (j 2).val = (j 2).val
    omega
  · show win0_4.index t (3 : Fin 4) * 640 + 1 * (j 3).val = (j 3).val
    omega

/-! ## The blocks tile the array -/

/-- An array index is in point `t`'s block iff each coordinate is in the block's range on its axis. -/
theorem mem_blk (t : Fin cfg0.N) (i : S8x300x80x640.Idx) :
    i ∈ ((cfg0.win 4).blk t).view.set ↔ ∀ a : Fin 4, win0_4.index t a * S1x50x80x640.size a ≤ (i a).val
      ∧ (i a).val < win0_4.index t a * S1x50x80x640.size a + S1x50x80x640.size a := by
  show i ∈ ((View.whole main_v0).slice (win0_4.rect t)).set ↔ _
  rw [View.set_slice_whole, Rect.mem_set_unit]
  exact Iff.rfl

/-- Every array index is in the block of the point with block index (i₀, i₁ / 50, 0, 0). -/
theorem cover (i : S8x300x80x640.Idx) :
    ∃ t : Fin cfg0.N, (cfg0.win 4).flush t = true ∧ i ∈ ((cfg0.win 4).blk t).view.set := by
  have hi0 : (i 0).val < 8 := (i 0).isLt
  have hi1 : (i 1).val < 300 := (i 1).isLt
  have hi2 : (i 2).val < 80 := (i 2).isLt
  have hi3 : (i 3).val < 640 := (i 3).isLt
  obtain ⟨t, ht⟩ := idx_onto ⟨(i 0).val, hi0⟩ ⟨(i 1).val / 50, by omega⟩
  have q0 : win0_4.index t (0 : Fin 4) = (i 0).val := congrFun ht 0
  have q1 : win0_4.index t (1 : Fin 4) = (i 1).val / 50 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 50 ≤ (i 1).val ∧ (i 1).val < win0_4.index t (1 : Fin 4) * 50 + 50; omega
  | ⟨2, _⟩ => show win0_4.index t (2 : Fin 4) * 80 ≤ (i 2).val ∧ (i 2).val < win0_4.index t (2 : Fin 4) * 80 + 80; omega
  | ⟨3, _⟩ => show win0_4.index t (3 : Fin 4) * 640 ≤ (i 3).val ∧ (i 3).val < win0_4.index t (3 : Fin 4) * 640 + 640; omega

/-! ## The array after the run, and the run -/

/-- The result array after the run is the specification of the argument arrays as launched. -/
theorem final (c : Dev nD) :
    (dats m 0 c).arrAt 4 cfg0.N
      = G (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- Every weakly fair execution of the kernel's @main terminates with the result buffer at the specification of the
    arguments and the arguments unchanged. -/
theorem run : θ_run defs (onTc (τ := τ) (main (F := Ideal))) ⟨m, fun _ => 0, ρ⟩ fun r => ∀ c : Dev nD,
      r.2.mem ((c : Thread nD τ).loc main_v0)
          = G (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.lean ====
/-
  The certificate of the fused joint network: a Pallas kernel that projects two activation streams through the two
  halves of one weight matrix, adds the projections across the broadcast axes with a bias and applies a leaky
  rectifier, against the plain reference that does the same with two contractions, three broadcasts and the
  rectifier on the host.

  At the ideal values both programs compute, at every result index (b, t, u, o),

      λ( (∑ h, x[b,t,0,h] · W[h,o]) + (∑ h, y[b,0,u,h] · W[512+h,o]) + β[o] ),   λ(J) = J if J ≥ 0 else 0.01 · J

  (the specification, Proof/Spec.lean).  The kernel's side: each of its 48 grid points writes one
  50 × 80 × 640 block of that function and the blocks tile the result (Proof/KernelPayload.lean, Proof/KernelFinal.lean).  The
  reference's side: its eighteen host operations compose to the same function (Proof/RefRun.lean, Proof/RefValue.lean).
  The narrowing of the matrix operands is the identity at the ideal values and a product into a zero accumulator is
  the plain sum, so the two sides agree by re-indexing finite sums alone: the inputs' finiteness is not used.  The
  kernel's idealization rewrote nothing, so the preservation claim is trivial; the two kernel frames are the
  generated ones, and the reference's frame is its run with the result dropped.
-/
import proofs.«169859_j74981539053948_1_alg».proof.Defs
import proofs.«169859_j74981539053948_1_alg».proof.Proof.Gen.Kernel
import proofs.«169859_j74981539053948_1_alg».proof.Proof.Gen.Kernel.Skeleton
import proofs.«169859_j74981539053948_1_alg».proof.Proof.Gen.Kernel.Launch
import proofs.«169859_j74981539053948_1_alg».proof.Proof.Gen.Kernel.Points
import proofs.«169859_j74981539053948_1_alg».proof.Proof.Gen.Kernel.Frame
import proofs.«169859_j74981539053948_1_alg».proof.Proof.Gen.KernelIdeal
import proofs.«169859_j74981539053948_1_alg».proof.Proof.Gen.KernelIdeal.Skeleton
import proofs.«169859_j74981539053948_1_alg».proof.Proof.Gen.KernelIdeal.Launch
import proofs.«169859_j74981539053948_1_alg».proof.Proof.Gen.KernelIdeal.Points
import proofs.«169859_j74981539053948_1_alg».proof.Proof.Gen.KernelIdeal.Frame
import proofs.«169859_j74981539053948_1_alg».proof.Proof.Gen.KernelIdeal.Value
import proofs.«169859_j74981539053948_1_alg».proof.Proof.Gen.ReferenceIdeal
import proofs.«169859_j74981539053948_1_alg».proof.Proof.Gen.Pre_finite_inputs
import proofs.«169859_j74981539053948_1_alg».proof.Proof.Spec
import proofs.«169859_j74981539053948_1_alg».proof.Proof.RefRun
import proofs.«169859_j74981539053948_1_alg».proof.Proof.RefValue
import proofs.«169859_j74981539053948_1_alg».proof.Proof.KernelPayload
import proofs.«169859_j74981539053948_1_alg».proof.Proof.KernelFinal
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- From memories that agree on the four arguments, the kernel's result array ends at the specification of its
    arguments and the reference's at the specification of its own: the same function of equal arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.out_eq_G _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
